-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x19x512x512 : Shape := ⟨4, ![8, 19, 512, 512]⟩
abbrev S19x15 : Shape := ⟨2, ![19, 15]⟩
abbrev S_ : Shape := ⟨0, ![]⟩

class Facts : Prop where
  bcast_S_S8x19x512x512 : S_.BroadcastsInDim S8x19x512x512 (![] : Fin 0 → Fin S8x19x512x512.rank)
  reducesTo_S8x19x512x512_S_d0_1_2_3 : S8x19x512x512.ReducesTo [0, 1, 2, 3] S_
  h_S_ : 0 < S_.numel
  bcast_S_S19x15 : S_.BroadcastsInDim S19x15 (![] : Fin 0 → Fin S19x15.rank)
  reducesTo_S19x15_S_d0_1 : S19x15.ReducesTo [0, 1] S_

variable [Facts]

def fn {F : FTy → Type} [FloatOps F] (main_arg0 : FVec F S8x19x512x512 .f32) (main_arg1 : FVec F S19x15 .f32) : IVec S_ 1 :=
  let main_v0 : FVec F S8x19x512x512 .f32 := Host.absf main_arg0
  let main_cst : FVec F S_ .f32 := constant S_ .f32 0x7F800000#32
  let main_v1 : FVec F S8x19x512x512 .f32 := broadcastInDim S8x19x512x512 ![] bcast_S_S8x19x512x512 main_cst
  let main_v2 : IVec S8x19x512x512 1 := cmpf .olt main_v0 main_v1
  let main_c : IVec S_ 1 := constantI S_ 1 1#1
  let main_v3 : IVec S_ 1 := (fun x v => Host.reduce IntOp.andi x v reducesTo_S8x19x512x512_S_d0_1_2_3 h_S_) main_v2 main_c
  let main_v4 : FVec F S19x15 .f32 := Host.absf main_arg1
  let main_cst_0 : FVec F S_ .f32 := constant S_ .f32 0x7F800000#32
  let main_v5 : FVec F S19x15 .f32 := broadcastInDim S19x15 ![] bcast_S_S19x15 main_cst_0
  let main_v6 : IVec S19x15 1 := cmpf .olt main_v4 main_v5
  let main_c_1 : IVec S_ 1 := constantI S_ 1 1#1
  let main_v7 : IVec S_ 1 := (fun x v => Host.reduce IntOp.andi x v reducesTo_S19x15_S_d0_1 h_S_) main_v6 main_c_1
  let main_v8 : IVec S_ 1 := andi main_v3 main_v7
  main_v8
-- ==== Kernel.lean ====
abbrev S8x19x512x512 : Shape := ⟨4, ![8, 19, 512, 512]⟩
abbrev S19x15 : Shape := ⟨2, ![19, 15]⟩
abbrev S15x19 : Shape := ⟨2, ![15, 19]⟩
abbrev S1x19x128x512 : Shape := ⟨4, ![1, 19, 128, 512]⟩
abbrev S19x128x512 : Shape := ⟨3, ![19, 128, 512]⟩
abbrev S128x512 : Shape := ⟨2, ![128, 512]⟩
abbrev S1x128x512 : Shape := ⟨3, ![1, 128, 512]⟩
abbrev S1x19 : Shape := ⟨2, ![1, 19]⟩
abbrev S19 : Shape := ⟨1, ![19]⟩
abbrev S19x1x1 : Shape := ⟨3, ![19, 1, 1]⟩

abbrev nBuf : Space → Nat
  | .hbm => 4
  | .vmem => 5
  | .smem => 0
  | _ => 0

abbrev bufTy : (tb : Table) → Fin (tcTables nBuf tb) → BufTy
  | .hbm, ⟨0, _⟩ => ⟨S8x19x512x512, .f32⟩
  | .hbm, ⟨1, _⟩ => ⟨S19x15, .f32⟩
  | .hbm, ⟨2, _⟩ => ⟨S15x19, .f32⟩
  | .hbm, ⟨3, _⟩ => ⟨S8x19x512x512, .f32⟩
  | .local _ .vmem, ⟨0, _⟩ => ⟨S15x19, .f32⟩
  | .local _ .vmem, ⟨1, _⟩ => ⟨S1x19x128x512, .f32⟩
  | .local _ .vmem, ⟨2, _⟩ => ⟨S1x19x128x512, .f32⟩
  | .local _ .vmem, ⟨3, _⟩ => ⟨S1x19x128x512, .f32⟩
  | .local _ .vmem, ⟨4, _⟩ => ⟨S1x19x128x512, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S15x19 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x19x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x19x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S19x15_S15x19_1_0 : S19x15.Transposes [1, 0] S15x19
  inb_S1x19x128x512_S1x19x128x512_0_0_0_0 : ∀ a, (![0, 0, 0, 0] : Fin 4 → Nat) a + S1x19x128x512.size a ≤ S1x19x128x512.size a
  h_S1x19x128x512 : 0 < S1x19x128x512.numel
  shapeCasts_S1x19x128x512_S19x128x512 : S1x19x128x512.ShapeCasts S19x128x512
  reduces_S19x128x512_S128x512 : S19x128x512.Reduces [0] S128x512
  shapeCasts_S128x512_S1x128x512 : S128x512.ShapeCasts S1x128x512
  broadcasts_S1x128x512_S19x128x512 : S1x128x512.Broadcasts S19x128x512
  inb_S15x19_S15x19_0_0 : ∀ a, (![0, 0] : Fin 2 → Nat) a + S15x19.size a ≤ S15x19.size a
  h_S15x19 : 0 < S15x19.numel
  shapeCasts_S15x19_S15x19 : S15x19.ShapeCasts S15x19
  slices_S15x19_o14_0_S1x19 : S15x19.Slices ![14, 0] S1x19
  shapeCasts_S1x19_S19 : S1x19.ShapeCasts S19
  shapeCasts_S19_S19x1x1 : S19.ShapeCasts S19x1x1
  slices_S15x19_o13_0_S1x19 : S15x19.Slices ![13, 0] S1x19
  shapeCasts_S19x1x1_S19x1x1 : S19x1x1.ShapeCasts S19x1x1
  broadcasts_S19x1x1_S19x128x512 : S19x1x1.Broadcasts S19x128x512
  slices_S15x19_o12_0_S1x19 : S15x19.Slices ![12, 0] S1x19
  slices_S15x19_o11_0_S1x19 : S15x19.Slices ![11, 0] S1x19
  slices_S15x19_o10_0_S1x19 : S15x19.Slices ![10, 0] S1x19
  slices_S15x19_o9_0_S1x19 : S15x19.Slices ![9, 0] S1x19
  slices_S15x19_o8_0_S1x19 : S15x19.Slices ![8, 0] S1x19
  slices_S15x19_o7_0_S1x19 : S15x19.Slices ![7, 0] S1x19
  slices_S15x19_o6_0_S1x19 : S15x19.Slices ![6, 0] S1x19
  slices_S15x19_o5_0_S1x19 : S15x19.Slices ![5, 0] S1x19
  slices_S15x19_o4_0_S1x19 : S15x19.Slices ![4, 0] S1x19
  slices_S15x19_o3_0_S1x19 : S15x19.Slices ![3, 0] S1x19
  slices_S15x19_o2_0_S1x19 : S15x19.Slices ![2, 0] S1x19
  slices_S15x19_o1_0_S1x19 : S15x19.Slices ![1, 0] S1x19
  slices_S15x19_o0_0_S1x19 : S15x19.Slices ![0, 0] S1x19
  shapeCasts_S19x128x512_S1x19x128x512 : S19x128x512.ShapeCasts S1x19x128x512
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S15x19.size a ≤ S15x19.size a
  hwx0_0 : ∀ i : grid0.Coords, EltTy.bits .f32 = 32 ∨ (Rect.block (s := S15x19) S15x19.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x19x128x512.size a ≤ S8x19x512x512.size a
  hwx0_1 : ∀ i : grid0.Coords, EltTy.bits .f32 = 32 ∨ (Rect.block (s := S8x19x512x512) S1x19x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x19x128x512.size a ≤ S8x19x512x512.size a
  hwx0_2 : ∀ i : grid0.Coords, EltTy.bits .f32 = 32 ∨ (Rect.block (s := S8x19x512x512) S1x19x128x512.size (cc0_transform_2 i) (hinb0_2 i)).WholeWords (EltTy.packing .f32)

variable [Facts₀]

abbrev win0_0 : Pipeline.Window sig grid0 :=
  Pipeline.Window.ofSpec (Memref.whole main_v0) S15x19.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x19x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x19x128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x19x512x512 : Shape := ⟨4, ![8, 19, 512, 512]⟩
abbrev S19x15 : Shape := ⟨2, ![19, 15]⟩
abbrev S_ : Shape := ⟨0, ![]⟩
abbrev S8x512x512 : Shape := ⟨3, ![8, 512, 512]⟩
abbrev S8x1x512x512 : Shape := ⟨4, ![8, 1, 512, 512]⟩
abbrev S19x8x512x512 : Shape := ⟨4, ![19, 8, 512, 512]⟩
abbrev S19x8x512x512x1 : Shape := ⟨5, ![19, 8, 512, 512, 1]⟩

abbrev nBuf : Space → Nat
  | .hbm => 51
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S19x15, .f32⟩
  | .hbm, ⟨2, _⟩ => ⟨S_, .f32⟩
  | .hbm, ⟨3, _⟩ => ⟨S8x512x512, .f32⟩
  | .hbm, ⟨4, _⟩ => ⟨S_, .f32⟩
  | .hbm, ⟨5, _⟩ => ⟨S8x512x512, .f32⟩
  | .hbm, ⟨6, _⟩ => ⟨S8x512x512, .f32⟩
  | .hbm, ⟨7, _⟩ => ⟨S8x1x512x512, .f32⟩
  | .hbm, ⟨8, _⟩ => ⟨S8x19x512x512, .f32⟩
  | .hbm, ⟨9, _⟩ => ⟨S8x19x512x512, .f32⟩
  | .hbm, ⟨10, _⟩ => ⟨S8x19x512x512, .f32⟩
  | .hbm, ⟨11, _⟩ => ⟨S_, .f32⟩
  | .hbm, ⟨12, _⟩ => ⟨S8x512x512, .f32⟩
  | .hbm, ⟨13, _⟩ => ⟨S8x1x512x512, .f32⟩
  | .hbm, ⟨14, _⟩ => ⟨S8x19x512x512, .f32⟩
  | .hbm, ⟨15, _⟩ => ⟨S8x19x512x512, .f32⟩
  | .hbm, ⟨16, _⟩ => ⟨S_, .f32⟩
  | .hbm, ⟨17, _⟩ => ⟨S8x19x512x512, .f32⟩
  | .hbm, ⟨18, _⟩ => ⟨S8x19x512x512, .f32⟩
  | .hbm, ⟨19, _⟩ => ⟨S8x19x512x512, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S8x19x512x512, .i32⟩
  | .hbm, ⟨24, _⟩ => ⟨S8x19x512x512, .i32⟩
  | .hbm, ⟨25, _⟩ => ⟨S_, .i32⟩
  | .hbm, ⟨26, _⟩ => ⟨S8x19x512x512, .i32⟩
  | .hbm, ⟨27, _⟩ => ⟨S8x19x512x512, .i32⟩
  | .hbm, ⟨28, _⟩ => ⟨S_, .i32⟩
  | .hbm, ⟨29, _⟩ => ⟨S8x19x512x512, .i32⟩
  | .hbm, ⟨30, _⟩ => ⟨S8x19x512x512, .i1⟩
  | .hbm, ⟨31, _⟩ => ⟨S_, .i32⟩
  | .hbm, ⟨32, _⟩ => ⟨S8x19x512x512, .i32⟩
  | .hbm, ⟨33, _⟩ => ⟨S8x19x512x512, .i32⟩
  | .hbm, ⟨34, _⟩ => ⟨S8x19x512x512, .i32⟩
  | .hbm, ⟨35, _⟩ => ⟨S19x8x512x512, .i32⟩
  | .hbm, ⟨36, _⟩ => ⟨S19x8x512x512x1, .i32⟩
  | .hbm, ⟨37, _⟩ => ⟨S19x8x512x512, .f32⟩
  | .hbm, ⟨38, _⟩ => ⟨S8x19x512x512, .f32⟩
  | .hbm, ⟨39, _⟩ => ⟨S_, .f32⟩
  | .hbm, ⟨40, _⟩ => ⟨S8x512x512, .f32⟩
  | .hbm, ⟨41, _⟩ => ⟨S8x1x512x512, .f32⟩
  | .hbm, ⟨42, _⟩ => ⟨S_, .f32⟩
  | .hbm, ⟨43, _⟩ => ⟨S8x1x512x512, .f32⟩
  | .hbm, ⟨44, _⟩ => ⟨S8x1x512x512, .i1⟩
  | .hbm, ⟨45, _⟩ => ⟨S_, .f32⟩
  | .hbm, ⟨46, _⟩ => ⟨S_, .f32⟩
  | .hbm, ⟨47, _⟩ => ⟨S8x1x512x512, .f32⟩
  | .hbm, ⟨48, _⟩ => ⟨S8x1x512x512, .f32⟩
  | .hbm, ⟨49, _⟩ => ⟨S8x19x512x512, .f32⟩
  | .hbm, ⟨50, _⟩ => ⟨S8x19x512x512, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_c_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]

class Facts₀ : Prop where
  reducesTo_S8x19x512x512_S8x512x512_d1 : S8x19x512x512.ReducesTo [1] S8x512x512
  h_S_ : 0 < S_.numel
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x19x512x512_0_1_2_3 : S8x1x512x512.BroadcastsInDim S8x19x512x512 (![0, 1, 2, 3] : Fin 4 → Fin S8x19x512x512.rank)
  bcast_S_S8x19x512x512 : S_.BroadcastsInDim S8x19x512x512 (![] : Fin 0 → Fin S8x19x512x512.rank)
  transposes_S8x19x512x512_S19x8x512x512_1_0_2_3 : S8x19x512x512.Transposes [1, 0, 2, 3] S19x8x512x512
  bcast_S19x8x512x512_S19x8x512x512x1_0_1_2_3 : S19x8x512x512.BroadcastsInDim S19x8x512x512x1 (![0, 1, 2, 3] : Fin 4 → Fin S19x8x512x512x1.rank)
  transposes_S19x8x512x512_S8x19x512x512_1_0_2_3 : S19x8x512x512.Transposes [1, 0, 2, 3] S8x19x512x512
  bcast_S_S8x1x512x512 : S_.BroadcastsInDim S8x1x512x512 (![] : Fin 0 → Fin S8x1x512x512.rank)
  gather_S19x15_S19x8x512x512x1_S19x8x512x512_n_1_0_0_1_4_11_wf : GatherDims.WF S19x15 S19x8x512x512x1 S19x8x512x512 [] [1] [0] [1] [0] 4 ![1, 1]

variable [Facts₀]

def gather_S19x15_S19x8x512x512x1_S19x8x512x512_n_1_0_0_1_4_11 : GatherDims S19x15 S19x8x512x512x1 S19x8x512x512 where
  offsetDims := []
  collapsedSliceDims := [1]
  operandBatchingDims := [0]
  startIndicesBatchingDims := [0]
  startIndexMap := [1]
  indexVectorDim := 4
  sliceSizes := ![1, 1]
  wf := gather_S19x15_S19x8x512x512x1_S19x8x512x512_n_1_0_0_1_4_11_wf

class Facts : Prop extends Facts₀ where

variable [Facts]
-- ==== Proof.Column.lean ====
/-
  One pixel's column. For a fixed batch entry and pixel the computation reads the 19 class logits of that pixel
  (`col`) and the 19 × 15 table of per-class bin frequencies (`tab`), and returns 19 numbers:

    m      = the largest logit (a fold of `max` from −∞),
    e k    = exp (col k − m),                 d = Σ k, e k,
    bin k  = the integer part of (e k / d) · 15, clamped into 0 … 14,
    cal k  = tab k (bin k),                    s = Σ k, cal k,
    out k  = cal k / (s, or 1 where s = 0).

  Everything is stated on extended reals with the operations of the ideal instance; the conversion to an integer
  and the float comparison are kept as the instance's own functions, since both programs apply the same ones.

  The only arithmetic fact proved here is about machine integers: a word clamped into 0 … 14 is one of fifteen
  literals, and on each of them a descending chain of "greater than k" selections (k = 13 … 0) over the table's
  row returns the row's entry at that word.
-/
import Idealize.ShloMosaic.PureOps.Ideal
import Idealize.ShloMosaic.PureOps.Ideal.Laws
import Idealize.ShloMosaic.Lib.ValueIdx

noncomputable section

namespace Cert.Calib

open Idealize.ShloMosaic

/-! ## A word clamped into the table's positions -/

/-- A signed word clamped into `0 … 14`: first raised to at least `0`, then lowered to at most `14`. -/
def binOf (r : BitVec 32) : BitVec 32 := IntOp.minsi 14#32 (IntOp.maxsi 0#32 r)

/-- The clamped word, as a natural number, is below fifteen. -/
theorem binOf_lt (r : BitVec 32) : (binOf r).toNat < 15 := by
  unfold binOf IntOp.minsi IntOp.maxsi
  by_cases h1 : r.slt 0#32 = true
  · rw [if_pos h1]; decide
  · rw [if_neg h1]
    by_cases h2 : (14#32 : BitVec 32).slt r = true
    · rw [if_pos h2]; decide
    · rw [if_neg h2]
      have e14 : (14#32 : BitVec 32).toInt = 14 := by decide
      have e0 : (0#32 : BitVec 32).toInt = 0 := by decide
      simp only [BitVec.slt, decide_eq_true_eq, e14, e0] at h1 h2
      have hr := r.isLt
      rw [BitVec.toInt_eq_toNat_cond] at h1 h2
      by_cases hc : 2 * r.toNat < 2 ^ 32
      · rw [if_pos hc] at h1 h2; omega
      · rw [if_neg hc] at h1 h2; omega

/-- A property of every clamped word follows from the property at the fifteen literals. -/
theorem forall_binOf {P : BitVec 32 → Prop} (h : ∀ n : Fin 15, P (BitVec.ofNat 32 n.val)) (r : BitVec 32) : P (binOf r) := by
  have e : binOf r = BitVec.ofNat 32 (binOf r).toNat := by simp
  rw [e]
  exact h ⟨(binOf r).toNat, binOf_lt r⟩

/-! ## The table lookup as a chain of selections -/

section Cascade
variable {α : Type}

/-- Seeded with the last entry, the entry at `k` replaces the running value wherever the word is not above `k`,
    for `k` from 13 down to 0. -/
def cascade (row : Fin 15 → α) (b : BitVec 32) : α :=
  Scalar.select (IntOp.cmpi .sgt b 0#32)
   (Scalar.select (IntOp.cmpi .sgt b 1#32)
    (Scalar.select (IntOp.cmpi .sgt b 2#32)
     (Scalar.select (IntOp.cmpi .sgt b 3#32)
      (Scalar.select (IntOp.cmpi .sgt b 4#32)
       (Scalar.select (IntOp.cmpi .sgt b 5#32)
        (Scalar.select (IntOp.cmpi .sgt b 6#32)
         (Scalar.select (IntOp.cmpi .sgt b 7#32)
          (Scalar.select (IntOp.cmpi .sgt b 8#32)
           (Scalar.select (IntOp.cmpi .sgt b 9#32)
            (Scalar.select (IntOp.cmpi .sgt b 10#32)
             (Scalar.select (IntOp.cmpi .sgt b 11#32)
              (Scalar.select (IntOp.cmpi .sgt b 12#32)
               (Scalar.select (IntOp.cmpi .sgt b 13#32) (row 14) (row 13))
               (row 12)) (row 11)) (row 10)) (row 9)) (row 8)) (row 7)) (row 6)) (row 5)) (row 4)) (row 3)) (row 2)) (row 1))
   (row 0)

/-- The entry of a row at a clamped word. -/
def entry (row : Fin 15 → α) (r : BitVec 32) : α := row ⟨(binOf r).toNat, binOf_lt r⟩

/-- On a clamped word the chain of selections is the row's entry at the word. -/
theorem cascade_binOf (row : Fin 15 → α) (r : BitVec 32) : cascade row (binOf r) = entry row r := by
  unfold entry
  have key : ∀ (b : BitVec 32) (hb : b.toNat < 15), cascade row b = row ⟨b.toNat, hb⟩ := by
    intro b hb
    obtain ⟨n, rfl⟩ : ∃ n : Fin 15, b = BitVec.ofNat 32 n.val := ⟨⟨b.toNat, hb⟩, by simp⟩
    fin_cases n <;> rfl
  exact key _ _

end Cascade

/-! ## The column -/

section Column
variable (col : Fin 19 → EReal) (tab : Fin 19 → Fin 15 → EReal)

/-- The largest logit: the fold of `max` over the classes from the accumulator's value (the pattern of −∞). -/
def colMax : EReal := (Finset.univ : Finset (Fin 19)).fold max (Ideal.ofBits .f32 0xFF800000#32) col

/-- The exponential of a logit less the largest. -/
def expAt (k : Fin 19) : EReal := Ideal.exp (col k - colMax col)

/-- The sum of those exponentials over the classes. -/
def expSum : EReal := ∑ k : Fin 19, expAt col k

/-- The unclamped bin word of class `k`: its probability times fifteen, converted to a signed integer. -/
def rawBin (k : Fin 19) : BitVec 32 :=
  FloatOps.fptosi (F := Ideal) (φ := .f32) 32 (Ideal.div (expAt col k) (expSum col) * Ideal.ofBits .f32 0x41700000#32)

/-- The calibrated value of class `k`: the table's entry for the class at its clamped bin. -/
def calAt (k : Fin 19) : EReal := entry (tab k) (rawBin col k)

/-- The sum of the calibrated values over the classes. -/
def calSum : EReal := ∑ k : Fin 19, calAt col tab k

/-- The normalised calibrated value of class `k`: divided by the sum, or by one where the sum compares equal to zero. -/
def normAt (k : Fin 19) : EReal :=
  Ideal.div (calAt col tab k)
    (Scalar.select (FloatOps.cmpf (F := Ideal) (φ := .f32) .oeq (calSum col tab) (Ideal.ofBits .f32 0x00000000#32))
      (Ideal.ofBits .f32 0x3F800000#32) (calSum col tab))

end Column

/-! ## The whole array -/

/-- The result as ONE function of the logits array [8, 19, 512, 512] and the table (class, bin ↦ frequency): at
    (b, c, h, w), the normalised calibrated value of class `c` in the column of pixel (b, h, w). -/
def pixelValue (a : (⟨4, ![8, 19, 512, 512]⟩ : Shape).Idx → EReal) (tab : Fin 19 → Fin 15 → EReal) :
    (⟨4, ![8, 19, 512, 512]⟩ : Shape).Idx → EReal :=
  fun i => normAt (fun k => a (ValueIdx.ix4 (i 0) k (i 2) (i 3))) tab (i 1)

theorem pixelValue_apply (a : (⟨4, ![8, 19, 512, 512]⟩ : Shape).Idx → EReal) (tab : Fin 19 → Fin 15 → EReal)
    (b : Fin 8) (c : Fin 19) (h w : Fin 512) :
    pixelValue a tab (ValueIdx.ix4 b c h w) = normAt (fun k => a (ValueIdx.ix4 b k h w)) tab c := rfl

end Cert.Calib

end
-- ==== Proof.RefColumn.lean ====
/-
  The reference program, pixel by pixel. Each stage of the reference's run is read at an index and identified
  with the corresponding quantity of one pixel's column: the class maximum, the exponentials and their sum, the
  clamped bin word, the table entry the batched gather picks, the sum of the calibrated values and the guarded
  quotient. The reference takes the maximum of −∞ and the fold of `max`, which is the fold since the fold starts from
  −∞; its sums start from the constant zero, which adds nothing; its gather normalises a negative index by adding
  fifteen, which never applies to a clamped word, and clamps the start index into the table, which leaves a clamped
  word where it is.
-/
import proofs.«413666_j33818572488971_3_alg».proof.Proof.Gen.ReferenceIdeal.Read
import proofs.«413666_j33818572488971_3_alg».proof.Proof.Column
import Idealize.ShloMosaic.Lib.ValueIdx
import Idealize.ShloMosaic.PureOps.Ideal.Laws

noncomputable section

namespace Cert.ReferenceIdeal.RefColumn

open Cert.ReferenceIdeal Cert.ReferenceIdeal.Gen Cert.ReferenceIdeal.Read
open Idealize.ShloMosaic Idealize.ShloMosaic.ValueIdx Cert.Calib

variable (x0 : (⟨S8x19x512x512, .f32⟩ : BufTy).Contents (Elt Ideal)) (x1 : (⟨S19x15, .f32⟩ : BufTy).Contents (Elt Ideal))

/-- The logits of one pixel, over the classes. -/
abbrev colOf (b : Fin 8) (h w : Fin 512) : Fin 19 → EReal := fun k => x0 (ix4 b k h w)
/-- The table, class by class. -/
abbrev tabOf : Fin 19 → Fin 15 → EReal := fun k n => x1 (ix2 k n)

/-! ## The class maximum -/

/-- The reduce over the class axis inserts the class coordinate at position 1. -/
theorem lift_eq (hr : S8x19x512x512.Reduces [1] S8x512x512) (b : Fin 8) (h w : Fin 512) (k : Fin 19) :
    hr.lift (ix3 b h w) k = ix4 b k h w :=
  funext fun a => Fin.ext (by match a with | ⟨0, _⟩ => rfl | ⟨1, _⟩ => rfl | ⟨2, _⟩ => rfl | ⟨3, _⟩ => rfl)

theorem max_eq (b : Fin 8) (h w : Fin 512) :
    val_main_v2 (F := Ideal) x0 (ix3 b h w) = colMax (colOf x0 b h w) := by
  have hr : S8x19x512x512.Reduces [1] S8x512x512 := by decide
  have hfold : val_main_v0 (F := Ideal) x0 (ix3 b h w) = colMax (colOf x0 b h w) := by
    unfold val_main_v0
    refine (Host.reduce_eq_fold_single (FloatOps.maximumf (F := Ideal) (φ := .f32)) (x0 : S8x19x512x512.Idx → EReal)
      (val_main_cst (F := Ideal) : S_.Idx → EReal) reducesTo_S8x19x512x512_S8x512x512_d1 hr h_S_ (ix3 b h w)).trans ?_
    unfold colMax
    show Finset.fold max (Ideal.ofBits .f32 0xFF800000#32) (fun k : Fin 19 => x0 (hr.lift (ix3 b h w) k)) Finset.univ = _
    exact Finset.fold_congr fun k _ => congrArg x0 (lift_eq hr b h w k)
  rw [val_main_v2_apply, hfold, val_main_v1_apply, val_main_cst_0_apply]
  show max (Ideal.ofBits .f32 0xFF800000#32) (colMax (colOf x0 b h w)) = _
  exact max_eq_right ((Finset.le_fold_max _).mpr (Or.inl le_rfl))

/-! ## The exponentials, their sum, the bin word -/

theorem exp_eq (b : Fin 8) (k : Fin 19) (h w : Fin 512) :
    val_main_v6 (F := Ideal) x0 (ix4 b k h w) = expAt (colOf x0 b h w) k := by
  rw [val_main_v6_apply, val_main_v5_apply, val_main_v4_apply, val_main_v3_apply]
  have e : idx_main_v3 (idx_main_v4 (ix4 b k h w)) = ix3 b h w :=
    funext fun a => Fin.ext (by match a with | ⟨0, _⟩ => rfl | ⟨1, _⟩ => rfl | ⟨2, _⟩ => rfl)
  rw [e, max_eq]
  rfl

theorem sum_eq (b : Fin 8) (h w : Fin 512) :
    val_main_v7 (F := Ideal) x0 (ix3 b h w) = expSum (colOf x0 b h w) := by
  rw [val_main_v7_apply, val_main_cst_1_apply]
  unfold expSum
  rw [Ideal.ofBits_def, Ideal.ofBits_zero_f32, zero_add]
  refine Finset.sum_congr rfl fun k _ => ?_
  have e : idx_main_v7 (ix3 b h w) k = ix4 b k h w :=
    funext fun a => Fin.ext (by match a with | ⟨0, _⟩ => rfl | ⟨1, _⟩ => rfl | ⟨2, _⟩ => rfl | ⟨3, _⟩ => rfl)
  rw [e, exp_eq]

theorem raw_eq (b : Fin 8) (c : Fin 19) (h w : Fin 512) :
    val_main_v13 (F := Ideal) x0 (ix4 b c h w) = rawBin (colOf x0 b h w) c := by
  rw [val_main_v13_apply, val_main_v12_apply, val_main_v11_apply, val_main_cst_2_apply, val_main_v10_apply,
    val_main_v9_apply, val_main_v8_apply]
  have e : idx_main_v8 (idx_main_v9 (ix4 b c h w)) = ix3 b h w :=
    funext fun a => Fin.ext (by match a with | ⟨0, _⟩ => rfl | ⟨1, _⟩ => rfl | ⟨2, _⟩ => rfl)
  rw [e, sum_eq, exp_eq]
  rfl

/-- The reference's clip is the clamp into the table's positions. -/
theorem bin_eq (b : Fin 8) (c : Fin 19) (h w : Fin 512) :
    val_main_v14 (F := Ideal) x0 (ix4 b c h w) = binOf (rawBin (colOf x0 b h w) c) := by
  rw [val_main_v14_apply, val_main_call0_v4_apply, val_main_call0_v3_apply, val_main_c_3_apply, val_main_call0_v2_apply,
    val_main_call0_v1_apply, val_main_call0_v0_apply, val_main_c_apply, raw_eq]
  rfl

/-! ## The batched gather, read at an index

The operand is the table [19, 15]; the start indices are [19, 8, 512, 512, 1] with the index vector on the last axis;
operand axis 0 is a batching axis paired with start-indices axis 0, operand axis 1 is collapsed and start-indexed.
So result element (c, b, h, w) is the table at row `c` and at the column the start index at (c, b, h, w, 0) names,
read signed and clamped into 0 … 14. -/

theorem gather_eq {α : Type} (x : S19x15.Idx → α) (idx : IVec S19x8x512x512x1 32) (c : Fin 19) (b : Fin 8) (h w : Fin 512) :
    Host.gather gather_S19x15_S19x8x512x512x1_S19x8x512x512_n_1_0_0_1_4_11 x idx (ix4 c b h w)
      = x (ix2 c ⟨min (idx (ix5 c b h w (0 : Fin 1))).toInt.toNat 14, by omega⟩) := by
  unfold Host.gather
  refine congrArg x (funext fun a => Fin.ext ?_)
  match a with
  | ⟨0, _⟩ =>
    show GatherDims.start _ (ix4 c b h w) idx 0 + GatherDims.batchCoord _ (ix4 c b h w) 0 + GatherDims.offCoord _ (ix4 c b h w) 0 = c.val
    rw [GatherDims.start_batching _ _ _ _ (List.mem_singleton.mpr rfl),
      GatherDims.offCoord_eq_zero _ _ _ (fun hk => ((GatherDims.mem_sKept _ _).mp hk).2 (List.mem_singleton.mpr rfl))]
    simp only [Nat.zero_add, Nat.add_zero]
    unfold GatherDims.batchCoord
    rw [dif_pos (show (0 : Fin 2) ∈ (gather_S19x15_S19x8x512x512x1_S19x8x512x512_n_1_0_0_1_4_11).operandBatchingDims from List.mem_singleton.mpr rfl)]
    unfold GatherDims.siCoord
    rfl
  | ⟨1, _⟩ =>
    show GatherDims.start _ (ix4 c b h w) idx 1 + GatherDims.batchCoord _ (ix4 c b h w) 1 + GatherDims.offCoord _ (ix4 c b h w) 1 = _
    rw [GatherDims.batchCoord_eq_zero _ _ _ (by decide),
      GatherDims.offCoord_eq_zero _ _ _ (fun hk => ((GatherDims.mem_sKept _ _).mp hk).1 (List.mem_singleton.mpr rfl))]
    simp only [Nat.add_zero]
    unfold GatherDims.start
    rw [dif_pos (show (1 : Fin 2) ∈ (gather_S19x15_S19x8x512x512x1_S19x8x512x512_n_1_0_0_1_4_11).startIndexMap from List.mem_singleton.mpr rfl)]
    have hsi : (gather_S19x15_S19x8x512x512x1_S19x8x512x512_n_1_0_0_1_4_11).siIdx (ix4 c b h w)
        ⟨List.idxOf (1 : Fin 2) (gather_S19x15_S19x8x512x512x1_S19x8x512x512_n_1_0_0_1_4_11).startIndexMap,
          List.idxOf_lt_length_iff.2 (List.mem_singleton.mpr rfl)⟩ = ix5 c b h w (0 : Fin 1) := by
      funext bb; refine Fin.ext ?_
      match bb with
      | ⟨0, _⟩ => rfl
      | ⟨1, _⟩ => rfl
      | ⟨2, _⟩ => rfl
      | ⟨3, _⟩ => rfl
      | ⟨4, _⟩ => rfl
    rw [hsi]
    rfl

/-! ## The calibrated values, their sum, the result -/

/-- Adding fifteen to a negative index never applies: a clamped word is not negative. -/
theorem index_eq (b : Fin 8) (c : Fin 19) (h w : Fin 512) :
    val_main_v19 (F := Ideal) x0 (ix4 b c h w) = binOf (rawBin (colOf x0 b h w) c) := by
  rw [val_main_v19_apply, val_main_v16_apply, val_main_v18_apply, val_main_v15_apply, val_main_c_4_apply, val_main_v17_apply,
    val_main_c_5_apply, bin_eq]
  exact forall_binOf (P := fun z => Scalar.select (IntOp.cmpi .slt z 0#32) (IntOp.addi z 15#32) z = z)
    (fun n => by fin_cases n <;> rfl) _

/-- The gather picks the table's entry for the class at the clamped bin: the clamp of the start index into the
    table leaves a clamped word where it is. -/
theorem cal_eq (b : Fin 8) (c : Fin 19) (h w : Fin 512) :
    val_main_v23 (F := Ideal) x0 x1 (ix4 b c h w) = calAt (colOf x0 b h w) (tabOf x1) c := by
  have e : idx_main_v23 (ix4 b c h w) = ix4 c b h w :=
    funext fun a => Fin.ext (by match a with | ⟨0, _⟩ => rfl | ⟨1, _⟩ => rfl | ⟨2, _⟩ => rfl | ⟨3, _⟩ => rfl)
  have e1 : idx_main_v21 (ix5 c b h w (0 : Fin 1)) = ix4 c b h w :=
    funext fun a => Fin.ext (by match a with | ⟨0, _⟩ => rfl | ⟨1, _⟩ => rfl | ⟨2, _⟩ => rfl | ⟨3, _⟩ => rfl)
  have e2 : idx_main_v20 (ix4 c b h w) = ix4 b c h w :=
    funext fun a => Fin.ext (by match a with | ⟨0, _⟩ => rfl | ⟨1, _⟩ => rfl | ⟨2, _⟩ => rfl | ⟨3, _⟩ => rfl)
  have hword : val_main_v21 (F := Ideal) x0 (ix5 c b h w (0 : Fin 1)) = binOf (rawBin (colOf x0 b h w) c) := by
    rw [val_main_v21_apply, e1, val_main_v20_apply, e2, index_eq]
  rw [val_main_v23_apply, e]
  unfold val_main_v22
  rw [gather_eq]
  unfold calAt entry
  refine congrArg (fun n : Fin 15 => x1 (ix2 c n)) (Fin.ext ?_)
  show min (val_main_v21 (F := Ideal) x0 (ix5 c b h w (0 : Fin 1))).toInt.toNat 14 = _
  rw [hword]
  exact forall_binOf (P := fun z => min z.toInt.toNat 14 = z.toNat) (fun n => by fin_cases n <;> rfl) _

theorem calsum_eq (b : Fin 8) (h w : Fin 512) :
    val_main_v24 (F := Ideal) x0 x1 (ix3 b h w) = calSum (colOf x0 b h w) (tabOf x1) := by
  rw [val_main_v24_apply, val_main_cst_6_apply]
  unfold calSum
  rw [Ideal.ofBits_def, Ideal.ofBits_zero_f32, zero_add]
  refine Finset.sum_congr rfl fun k _ => ?_
  have e : idx_main_v24 (ix3 b h w) k = ix4 b k h w :=
    funext fun a => Fin.ext (by match a with | ⟨0, _⟩ => rfl | ⟨1, _⟩ => rfl | ⟨2, _⟩ => rfl | ⟨3, _⟩ => rfl)
  rw [e, cal_eq]

/-- THE REFERENCE'S RESULT at (b, c, h, w) is the normalised calibrated value of class `c` in that pixel's column. -/
theorem out_eq (b : Fin 8) (c : Fin 19) (h w : Fin 512) :
    val_main_v30 (F := Ideal) x0 x1 (ix4 b c h w) = normAt (colOf x0 b h w) (tabOf x1) c := by
  rw [val_main_v30_apply, val_main_v29_apply, val_main_v28_apply, val_main_v27_apply, val_main_v26_apply, val_main_cst_7_apply,
    val_main_call1_v1_apply, val_main_call1_v0_apply, val_main_cst_8_apply, val_main_v25_apply]
  have e : idx_main_v25 (idx_main_v29 (ix4 b c h w)) = ix3 b h w :=
    funext fun a => Fin.ext (by match a with | ⟨0, _⟩ => rfl | ⟨1, _⟩ => rfl | ⟨2, _⟩ => rfl)
  rw [e, calsum_eq, cal_eq]
  rfl

/-- THE REFERENCE'S RESULT ARRAY is the one whole-array function of its two arguments. -/
theorem result_eq : val_main_v30 (F := Ideal) x0 x1 = pixelValue x0 (tabOf x1) := by
  funext i
  obtain ⟨b, c, h, w, rfl⟩ : ∃ (b : Fin 8) (c : Fin 19) (h w : Fin 512), i = ix4 b c h w :=
    ⟨i 0, i 1, i 2, i 3, eq_ix4 i⟩
  rw [out_eq, pixelValue_apply]

end Cert.ReferenceIdeal.RefColumn

end
-- ==== Proof.KernelColumn.lean ====
/-
  The kernel's body, pixel by pixel. One grid point holds a block [1, 19, 128, 512] of the logits (all classes of 128
  rows of one batch entry) and the whole transposed table [15, 19]. The body reduces over the class axis of the block
  (the leading axis once the unit batch axis is cast away), so the value it stores at (class c, row h, column w) depends
  on the block's column (·, h, w) and on the table only: it is the normalised calibrated value of class `c` in that
  column. The table row for bin `n` is cut out of the transposed table, laid along the class axis and spread over the
  rows and columns, so at (c, h, w) it reads the transposed table at (n, c).
-/
import proofs.«413666_j33818572488971_3_alg».proof.Proof.Gen.KernelIdeal.Frame
import proofs.«413666_j33818572488971_3_alg».proof.Proof.Column
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KernelColumn

open Cert.KernelIdeal Cert.KernelIdeal.Gen
open Idealize.ShloMosaic Idealize.ShloMosaic.ValueIdx Cert.Calib

/-! ## Pointwise operations read at an index -/

section Pointwise
variable {s : Shape} {w : Nat} {φ : FTy}
theorem cmpi_apply (p : CmpIPredicate) (a b : IVec s w) (i : s.Idx) : cmpi p a b i = IntOp.cmpi p (a i) (b i) := rfl
theorem minsi_apply (a b : IVec s w) (i : s.Idx) : minsi a b i = IntOp.minsi (a i) (b i) := rfl
theorem maxsi_apply (a b : IVec s w) (i : s.Idx) : maxsi a b i = IntOp.maxsi (a i) (b i) := rfl
theorem fptosi_apply (a : FVec Ideal s φ) (i : s.Idx) : fptosi w a i = FloatOps.fptosi w (a i) := rfl
theorem exp_apply (a : FVec Ideal s φ) (i : s.Idx) : exp a i = Ideal.exp (a i) := rfl
end Pointwise

/-! ## The block's layout operations read at an index -/

section Layout
variable {α : Type}

/-- Reducing the class axis of a [19, 128, 512] block inserts the class coordinate in front. -/
theorem lift_eq (hr : S19x128x512.Reduces [0] S128x512) (h : Fin 128) (w : Fin 512) (k : Fin 19) :
    hr.lift (ix2 h w) k = ix3 k h w :=
  funext fun a => Fin.ext (by match a with | ⟨0, _⟩ => rfl | ⟨1, _⟩ => rfl | ⟨2, _⟩ => rfl)

/-- The maximum over the classes at a pixel of the block is the column's largest entry. -/
theorem blockMax_apply (v : FVec Ideal S19x128x512 .f32) (hr : S19x128x512.Reduces [0] S128x512)
    (hacc : (0xFF800000#32 : BitVec 32) = 0xFF800000#32) (h : Fin 128) (w : Fin 512) :
    multiReduction .maximumf ([0] : List (Fin 3)) S128x512 v 0xFF800000#32 hr (.inl rfl) hacc (ix2 h w) = colMax (fun k => v (ix3 k h w)) := by
  rw [Ideal.multiReduction_maximumf_single v _ hr (.inl rfl) hacc (ix2 h w)]
  unfold colMax
  show Finset.fold max (Ideal.ofBits .f32 0xFF800000#32) (fun k : Fin 19 => v (hr.lift (ix2 h w) k)) Finset.univ = _
  exact Finset.fold_congr fun k _ => congrArg v (lift_eq hr h w k)

/-- The sum over the classes at a pixel of the block. -/
theorem blockSum_apply (v : FVec Ideal S19x128x512 .f32) (hr : S19x128x512.Reduces [0] S128x512)
    (hacc : (0x00000000#32 : BitVec 32) = 0x00000000#32) (h : Fin 128) (w : Fin 512) :
    multiReduction .add ([0] : List (Fin 3)) S128x512 v 0x00000000#32 hr (.inl rfl) hacc (ix2 h w) = ∑ k : Fin 19, v (ix3 k h w) := by
  rw [Ideal.multiReduction_add_single v _ hr (.inl rfl) hacc (ix2 h w)]
  exact Finset.sum_congr rfl fun k _ => congrArg v (lift_eq hr h w k)

/-- A per-pixel value [1, 128, 512] spread over the classes reads, at (c, h, w), the value at (h, w). -/
theorem spread_apply (v : S1x128x512.Idx → α) (hbc : S1x128x512.Broadcasts S19x128x512) (c : Fin 19) (h : Fin 128) (w : Fin 512) :
    broadcastTo S19x128x512 v hbc (ix3 c h w) = v (ix3 (0 : Fin 1) h w) :=
  broadcastTo_apply v hbc (ix3 c h w) (ix3 (0 : Fin 1) h w) fun a => by
    match a with
    | ⟨0, _⟩ => rfl
    | ⟨1, _⟩ => rfl
    | ⟨2, _⟩ => rfl

/-- A per-class value [19, 1, 1] spread over the pixels reads, at (c, h, w), the value at (c, 0, 0). -/
theorem rowSpread_apply (v : S19x1x1.Idx → α) (hbc : S19x1x1.Broadcasts S19x128x512) (c : Fin 19) (h : Fin 128) (w : Fin 512) :
    broadcastTo S19x128x512 v hbc (ix3 c h w) = v (ix3 c (0 : Fin 1) (0 : Fin 1)) :=
  broadcastTo_apply v hbc (ix3 c h w) (ix3 c (0 : Fin 1) (0 : Fin 1)) fun a => by
    match a with
    | ⟨0, _⟩ => rfl
    | ⟨1, _⟩ => rfl
    | ⟨2, _⟩ => rfl

/-- A vector [19] cast to a column [19, 1, 1] reads, at (c, 0, 0), the vector at `c`. -/
theorem column_apply (v : S19.Idx → α) (hsc : S19.ShapeCasts S19x1x1) (c : Fin 19) :
    shapeCast S19x1x1 v hsc (ix3 c (0 : Fin 1) (0 : Fin 1)) = v (ix1 c) :=
  shapeCast_apply v hsc _ _ (by
    rw [Shape.rowMajor_val_one, Shape.rowMajor_val_three]
    show c.val = (c.val * 1 + 0) * 1 + 0
    omega)

/-- Row `o` of the transposed table, cut out as a [1, 19] slice, reads at (0, c) the table at (o, c). -/
theorem tableRow_apply (o : Nat) (ho : o < 15) (vf : S15x19.Idx → α) (hsl : S15x19.Slices ![o, 0] S1x19) (c : Fin 19) :
    extractStridedSlice S1x19 ![o, 0] vf hsl (ix2 (0 : Fin 1) c) = vf (ix2 (⟨o, ho⟩ : Fin 15) c) :=
  slice2_axis0_apply o vf hsl (0 : Fin 1) c ⟨o, ho⟩ rfl

end Layout

/-! ## The payloads at an index -/

/-- The clamped bin word the body computes at (c, h, w) is the column's, for the block's column (·, h, w). -/
theorem bins_apply (v0 : Vec Ideal S1x19x128x512 .f32) (c : Fin 19) (h : Fin 128) (w : Fin 512) :
    k0_pay2 v0 (ix3 c h w) = binOf (rawBin (fun k => v0 (ix4 (0 : Fin 1) k h w)) c) := by
  unfold k0_pay2
  simp only [minsi_apply, maxsi_apply, broadcast_apply, fptosi_apply, mulf_apply, divf_apply, exp_apply, subf_apply,
    spread_apply, shapeCast_ab_1ab_apply, blockMax_apply, blockSum_apply, shapeCast_1abc_abc_apply]
  rfl

/-! ## What the body stores at an index -/

theorem hz4 : (![0, 0, 0, 0] : Fin 4 → Nat) = fun _ => 0 := funext fun a => by fin_cases a <;> rfl
theorem hz2 : (![0, 0] : Fin 2 → Nat) = fun _ => 0 := funext fun a => by fin_cases a <;> rfl

/-- THE STORED BLOCK at (·, c, h, w): the normalised calibrated value of class `c` for the logits block's column
    (·, h, w) and the table whose entry for class `k` and bin `n` is the transposed table at (n, k). -/
theorem out_apply (x0 : Vec Ideal S15x19 .f32) (x1 : Vec Ideal S1x19x128x512 .f32) (u : Fin 1) (c : Fin 19) (h : Fin 128) (w : Fin 512) :
    out0_2 x0 x1 (ix4 u c h w) = normAt (fun k => x1 (ix4 (0 : Fin 1) k h w)) (fun k n => x0 (ix2 n k)) c := by
  unfold out0_2
  rw [View.canon_unit_zero hz4]
  simp only [View.ld_unit_zero (S := S1x19x128x512) hz4, View.ld_unit_zero (S := S15x19) hz2]
  unfold k0_pay1 k0_pay8 k0_pay6 k0_pay4 k0_pay5 k0_pay7 k0_pay3
  simp only [shapeCast_abc_1abc_apply, divf_apply, select_apply, cmpf_apply, cmpi_apply, broadcast_apply, spread_apply,
    shapeCast_ab_1ab_apply, blockSum_apply, rowSpread_apply, shapeCast_self, column_apply, shapeCast_1a_a_apply,
    tableRow_apply 0 (by decide), tableRow_apply 1 (by decide), tableRow_apply 2 (by decide), tableRow_apply 3 (by decide), tableRow_apply 4 (by decide), tableRow_apply 5 (by decide), tableRow_apply 6 (by decide), tableRow_apply 7 (by decide), tableRow_apply 8 (by decide), tableRow_apply 9 (by decide), tableRow_apply 10 (by decide), tableRow_apply 11 (by decide), tableRow_apply 12 (by decide), tableRow_apply 13 (by decide), tableRow_apply 14 (by decide), bins_apply]
  show Ideal.div (cascade (fun n => x0 (ix2 n c)) (binOf (rawBin (fun k => x1 (ix4 (0 : Fin 1) k h w)) c)))
      (Scalar.select
        (FloatOps.cmpf (F := Ideal) (φ := .f32) .oeq
          (∑ k : Fin 19, cascade (fun n => x0 (ix2 n k)) (binOf (rawBin (fun k => x1 (ix4 (0 : Fin 1) k h w)) k)))
          (Ideal.ofBits .f32 0x00000000#32))
        (Ideal.ofBits .f32 0x3F800000#32)
        (∑ k : Fin 19, cascade (fun n => x0 (ix2 n k)) (binOf (rawBin (fun k => x1 (ix4 (0 : Fin 1) k h w)) k)))) = _
  simp only [cascade_binOf]
  rfl

end Cert.KernelIdeal.KernelColumn

end
-- ==== Proof.Blocks.lean ====
/-
  From blocks to the array. The grid has 8 × 4 points; point (b, q) stages the whole transposed table and the logits
  block [b, all classes, rows 128·q … 128·q + 127, all columns], and writes back the block of the result at the same
  place. Inside a block the stored value at (class, row, column) depends only on the block's column through that pixel
  and on the table, so each point writes the restriction of ONE function of the arrays; the 32 blocks tile the result
  array (the block holding row r of batch entry b is point (b, r / 128)), so after the run the result array is that
  function. The table the region finds is the transpose the host computed just before it, so its entry at (bin, class)
  is the argument table's at (class, bin).
-/
import proofs.«413666_j33818572488971_3_alg».proof.Proof.Gen.KernelIdeal.Value
import proofs.«413666_j33818572488971_3_alg».proof.Proof.KernelColumn
import Idealize.ShloMosaic.Lib.Pipeline.Value
import Idealize.ShloMosaic.Lib.StableHlo.Run
import Idealize.ShloMosaic.Lib.ValueLayout

noncomputable section

namespace Cert.KernelIdeal.Blocks

open Cert.KernelIdeal Cert.KernelIdeal.Gen Cert.KernelIdeal.KernelColumn
open Idealize.ShloMosaic Idealize.ShloMosaic.TcCoe Idealize.SL.Sem Idealize.ShloMosaic.ValueIdx Cert.Calib
open Idealize.ShloMosaic.Pipeline (Dat)

variable (m : (ℓ : Loc nD τ sig) → Buf (Elt Ideal) ℓ) (ρ : Dev nD → PrngReg)

/-! ## The arrays the region finds, and the blocks of a point, at their literal types -/

/-- The logits array as the region finds it. -/
abbrev logits (c : Dev nD) : S8x19x512x512.Idx → EReal := V m c main_arg0
/-- The transposed table as the region finds it. -/
abbrev tableT (c : Dev nD) : S15x19.Idx → EReal := V m c main_v0
/-- The table, class by class, read off the transposed one. -/
abbrev tableOf (c : Dev nD) : Fin 19 → Fin 15 → EReal := fun k n => tableT m c (ix2 n k)
/-- Point `t`'s block of the transposed table (the whole of it). -/
abbrev tableBlk (c : Dev nD) (t : Fin cfg0.N) : Vec Ideal S15x19 .f32 := iblk m c 0 t
/-- Point `t`'s block of the logits. -/
abbrev logitBlk (c : Dev nD) (t : Fin cfg0.N) : Vec Ideal S1x19x128x512 .f32 := iblk m c 1 t

/-! ## The index maps, decided over the 32 points -/

/-- The table's window never moves; the logits' window moves with the result's; neither moves along the class axis or
    the column axis. -/
theorem idx_facts : ∀ t : Fin cfg0.N,
    win0_0.index t (0 : Fin 2) = 0 ∧ win0_0.index t (1 : Fin 2) = 0
    ∧ win0_1.index t (0 : Fin 4) = win0_2.index t (0 : Fin 4) ∧ win0_1.index t (1 : Fin 4) = 0
    ∧ win0_1.index t (2 : Fin 4) = win0_2.index t (2 : Fin 4) ∧ win0_1.index t (3 : Fin 4) = 0
    ∧ win0_2.index t (1 : Fin 4) = 0 ∧ win0_2.index t (3 : Fin 4) = 0
    ∧ win0_2.index t (0 : Fin 4) ≤ 7 ∧ win0_2.index t (2 : Fin 4) ≤ 3 :=
  (by decide +kernel : ∀ t : Fin grid0.N, _)

/-- Every (batch entry, group of 128 rows) is some point's block. -/
theorem idx_onto : ∀ (q0 : Fin 8) (q2 : Fin 4), ∃ t : Fin cfg0.N, win0_2.index t = ![q0.val, 0, q2.val, 0] :=
  (by decide +kernel : ∀ (q0 : Fin 8) (q2 : Fin 4), ∃ t : Fin grid0.N, win0_2.index t = ![q0.val, 0, q2.val, 0])

/-! ## What a point writes back -/

/-- WHAT POINT `t` WRITES BACK is block `t` of the one whole-array function of the arrays the region finds. -/
theorem flushed_eq (c : Dev nD) (t : Fin cfg0.N) :
    (dats m 0 c).flushed 2 t
      = ((cfg0.win 2).blk t).view.read (Elt Ideal) (pixelValue (logits m c) (tableOf m c)) := by
  rw [Cert.KernelIdeal.Value.flushed2]
  obtain ⟨e0, e1, e2, e3, e4, e5, e6, e7, e8, e9⟩ := idx_facts t
  refine funext fun (j : S1x19x128x512.Idx) => ?_
  obtain ⟨u, cc, hh, ww, rfl⟩ : ∃ (u : Fin 1) (cc : Fin 19) (hh : Fin 128) (ww : Fin 512), j = ix4 u cc hh ww :=
    ⟨j 0, j 1, j 2, j 3, eq_ix4 j⟩
  show out0_2 (tableBlk m c t) (logitBlk m c t) (ix4 u cc hh ww)
      = pixelValue (logits m c) (tableOf m c) (((cfg0.win 2).blk t).view.emb (ix4 u cc hh ww))
  rw [out_apply]
  have hu : u.val = 0 := by omega
  have hhlt : hh.val < 128 := hh.isLt
  -- the block's index in the array, axis by axis: block index × block size + the coordinate inside the block
  have hE : ((cfg0.win 2).blk t).view.emb (ix4 u cc hh ww)
      = ix4 (⟨win0_2.index t (0 : Fin 4), by omega⟩ : Fin 8) cc
          (⟨win0_2.index t (2 : Fin 4) * 128 + hh.val, by omega⟩ : Fin 512) ww := by
    funext a; apply Fin.ext
    match a with
    | ⟨0, _⟩ => show win0_2.index t (0 : Fin 4) * 1 + 1 * u.val = win0_2.index t (0 : Fin 4); omega
    | ⟨1, _⟩ => show win0_2.index t (1 : Fin 4) * 19 + 1 * cc.val = cc.val; omega
    | ⟨2, _⟩ => show win0_2.index t (2 : Fin 4) * 128 + 1 * hh.val = win0_2.index t (2 : Fin 4) * 128 + hh.val; omega
    | ⟨3, _⟩ => show win0_2.index t (3 : Fin 4) * 512 + 1 * ww.val = ww.val; omega
  rw [hE, pixelValue_apply]
  have hcol : (fun k : Fin 19 => logitBlk m c t (ix4 (0 : Fin 1) k hh ww))
      = fun k => logits m c (ix4 (⟨win0_2.index t (0 : Fin 4), by omega⟩ : Fin 8) k
          (⟨win0_2.index t (2 : Fin 4) * 128 + hh.val, by omega⟩ : Fin 512) ww) := by
    funext k
    show logits m c (((cfg0.win 1).blk t).view.emb (ix4 (0 : Fin 1) k hh ww)) = _
    refine congrArg (logits m c) (funext fun a => Fin.ext ?_)
    match a with
    | ⟨0, _⟩ => show win0_1.index t (0 : Fin 4) * 1 + 1 * 0 = win0_2.index t (0 : Fin 4); omega
    | ⟨1, _⟩ => show win0_1.index t (1 : Fin 4) * 19 + 1 * k.val = k.val; omega
    | ⟨2, _⟩ => show win0_1.index t (2 : Fin 4) * 128 + 1 * hh.val = win0_2.index t (2 : Fin 4) * 128 + hh.val; omega
    | ⟨3, _⟩ => show win0_1.index t (3 : Fin 4) * 512 + 1 * ww.val = ww.val; omega
  have htab : (fun (k : Fin 19) (n : Fin 15) => tableBlk m c t (ix2 n k)) = tableOf m c := by
    funext k n
    show tableT m c (((cfg0.win 0).blk t).view.emb (ix2 n k)) = tableT m c (ix2 n k)
    refine congrArg (tableT m c) (funext fun a => Fin.ext ?_)
    match a with
    | ⟨0, _⟩ => show win0_0.index t (0 : Fin 2) * 15 + 1 * n.val = n.val; omega
    | ⟨1, _⟩ => show win0_0.index t (1 : Fin 2) * 19 + 1 * k.val = k.val; omega
  rw [hcol, htab]

/-! ## The blocks tile the result array -/

/-- An index of the array is in point `t`'s block iff each coordinate is in the block's range on its axis. -/
theorem mem_blk (t : Fin cfg0.N) (i : S8x19x512x512.Idx) :
    i ∈ ((cfg0.win 2).blk t).view.set ↔ ∀ a : Fin 4, win0_2.index t a * S1x19x128x512.size a ≤ (i a).val
      ∧ (i a).val < win0_2.index t a * S1x19x128x512.size a + S1x19x128x512.size a := by
  show i ∈ ((View.whole main_v1).slice (win0_2.rect t)).set ↔ _
  rw [View.set_slice_whole, Rect.mem_set_unit]
  exact Iff.rfl

/-- Every index of the result array is in some point's block: batch entry `b`, row `r` is in point (b, r / 128)'s. -/
theorem cover (i : S8x19x512x512.Idx) :
    ∃ t : Fin cfg0.N, (cfg0.win 2).flush t = true ∧ i ∈ ((cfg0.win 2).blk t).view.set := by
  have h0 : (i 0).val < 8 := (i 0).isLt
  have h1 : (i 1).val < 19 := (i 1).isLt
  have h2 : (i 2).val < 512 := (i 2).isLt
  have h3 : (i 3).val < 512 := (i 3).isLt
  obtain ⟨t, ht⟩ := idx_onto ⟨(i 0).val, h0⟩ ⟨(i 2).val / 128, by omega⟩
  have q0 : win0_2.index t (0 : Fin 4) = (i 0).val := congrFun ht 0
  have q1 : win0_2.index t (1 : Fin 4) = 0 := congrFun ht 1
  have q2 : win0_2.index t (2 : Fin 4) = (i 2).val / 128 := congrFun ht 2
  have q3 : win0_2.index t (3 : Fin 4) = 0 := congrFun ht 3
  refine ⟨t, flush0_2 t, (mem_blk t i).mpr fun a => ?_⟩
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 19 ≤ (i 1).val ∧ (i 1).val < win0_2.index t (1 : Fin 4) * 19 + 19; omega
  | ⟨2, _⟩ => show win0_2.index t (2 : Fin 4) * 128 ≤ (i 2).val ∧ (i 2).val < win0_2.index t (2 : Fin 4) * 128 + 128; omega
  | ⟨3, _⟩ => show win0_2.index t (3 : Fin 4) * 512 ≤ (i 3).val ∧ (i 3).val < win0_2.index t (3 : Fin 4) * 512 + 512; omega

/-! ## The table the region finds -/

/-- The one host operation before the region writes the transpose of the argument table. -/
theorem tableT_eq (c : Dev nD) :
    tableT m c = transpose S15x19 [1, 0] (m ((c : Thread nD τ).loc main_arg1)) Facts₀.transposes_S19x15_S15x19_1_0 := by
  show (V m c main_v0 : S15x19.Idx → EReal) = _
  dsimp only [Gen.V, Gen.hostOps0]
  after_results

/-- So its entry at (bin, class) is the argument table's at (class, bin). -/
theorem tableOf_eq (c : Dev nD) :
    tableOf m c = fun (k : Fin 19) (n : Fin 15) => m ((c : Thread nD τ).loc main_arg1) (ix2 k n) := by
  funext k n
  show tableT m c (ix2 n k) = _
  rw [tableT_eq]
  exact transpose_ix2_apply _ _ n k

/-! ## The result array after the run -/

/-- THE RESULT ARRAY after the run is the one whole-array function of the two arguments. -/
theorem final (c : Dev nD) :
    (dats m 0 c).arrAt 2 cfg0.N
      = pixelValue (m ((c : Thread nD τ).loc main_arg0)) (fun k n => m ((c : Thread nD τ).loc main_arg1) (ix2 k n)) := by
  rw [(dats m 0 c).arrAt_eq_of_cover 2 (pixelValue (logits m c) (tableOf m c)) (fun t _ => flushed_eq m c t) cover,
    tableOf_eq, show logits m c = m ((c : Thread nD τ).loc main_arg0) from V_main_arg0 m c]

/-- The kernel's run re-posted: the result array at that function, the arguments unchanged. -/
theorem run : θ_run defs (onTc (τ := τ) (main (F := Ideal))) ⟨m, fun _ => 0, ρ⟩ fun r => ∀ c : Dev nD,
      r.2.mem ((c : Thread nD τ).loc main_v1)
        = pixelValue (m ((c : Thread nD τ).loc main_arg0)) (fun k n => m ((c : Thread nD τ).loc main_arg1) (ix2 k n))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Blocks

end
-- ==== Proof.lean ====
/-
  Per-class histogram calibration of a softmax, a Pallas kernel against its jnp reference, equal over the extended reals.

  For logits x : [8, 19, 512, 512] (batch, class, row, column) and a table f : [19, 15] (class, bin) both programs
  compute, for every pixel (b, h, w) separately, from the 19 class logits of that pixel:

      m = max over the classes,   e_k = exp (x_k − m),   d = Σ_k e_k,
      bin_k = the integer part of (e_k / d) · 15, clamped into 0 … 14,
      cal_k = f (k, bin_k),        s = Σ_k cal_k,        out_k = cal_k / (s if s ≠ 0 else 1).

  The two differ only in how they spell three steps, none of which changes a value on the extended reals:
  * the reference takes max (−∞, fold) where the kernel takes the fold of max from −∞: the same number, since the fold
    starts at −∞;
  * the reference's sums start from the constant zero, the kernel's reduction drops its zero accumulator;
  * the reference looks the table up by a batched gather (after adding 15 to negative indices, and with the start index
    clamped into the table), the kernel by fourteen "bin > k" selections over the rows of the transposed table: on a
    word clamped into 0 … 14 — one of fifteen literals — both return f (k, bin_k).
  The conversion to an integer, the comparisons and the quotients are the same functions on both sides and are never
  opened; no step uses that the inputs are finite.

  Proof/Column.lean states one pixel's column and the whole-array function `pixelValue`; Proof/RefColumn.lean reads
  the reference's run stage by stage to it; Proof/KernelColumn.lean reads what the kernel's body stores in a block at
  an index to it; Proof/Blocks.lean shows the 8 × 4 blocks are restrictions of it and tile the result array. The
  three frames are the generated ones (the reference's is its generated run with the result dropped), and the kernel's
  idealization rewrote nothing, so there is nothing to preserve.
-/
import proofs.«413666_j33818572488971_3_alg».proof.Defs
import proofs.«413666_j33818572488971_3_alg».proof.Proof.Gen.Kernel
import proofs.«413666_j33818572488971_3_alg».proof.Proof.Gen.Kernel.Skeleton
import proofs.«413666_j33818572488971_3_alg».proof.Proof.Gen.Kernel.Launch
import proofs.«413666_j33818572488971_3_alg».proof.Proof.Gen.Kernel.Points
import proofs.«413666_j33818572488971_3_alg».proof.Proof.Gen.Kernel.Frame
import proofs.«413666_j33818572488971_3_alg».proof.Proof.Gen.KernelIdeal
import proofs.«413666_j33818572488971_3_alg».proof.Proof.Gen.KernelIdeal.Skeleton
import proofs.«413666_j33818572488971_3_alg».proof.Proof.Gen.KernelIdeal.Launch
import proofs.«413666_j33818572488971_3_alg».proof.Proof.Gen.KernelIdeal.Points
import proofs.«413666_j33818572488971_3_alg».proof.Proof.Gen.KernelIdeal.Frame
import proofs.«413666_j33818572488971_3_alg».proof.Proof.Gen.ReferenceIdeal
import proofs.«413666_j33818572488971_3_alg».proof.Proof.Gen.Pre_finite_inputs
import proofs.«413666_j33818572488971_3_alg».proof.Proof.Gen.KernelIdeal.Value
import proofs.«413666_j33818572488971_3_alg».proof.Proof.Gen.ReferenceIdeal.Run
import proofs.«413666_j33818572488971_3_alg».proof.Proof.Gen.ReferenceIdeal.Read
import proofs.«413666_j33818572488971_3_alg».proof.Proof.Column
import proofs.«413666_j33818572488971_3_alg».proof.Proof.RefColumn
import proofs.«413666_j33818572488971_3_alg».proof.Proof.KernelColumn
import proofs.«413666_j33818572488971_3_alg».proof.Proof.Blocks
import Idealize.ShloMosaic.Adequacy
import Idealize.ShloMosaic.Init

noncomputable section

namespace Cert.Proof

open Idealize.ShloMosaic Idealize.ShloMosaic.ValueIdx Idealize.SL.Sem Cert.Calib

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array and the reference's are both the one whole-array function
    `pixelValue` of the logits and the table. -/
theorem algebraic : Cert.algebraic_KernelIdeal_ReferenceIdeal := by
  intro m ρ m' ρ' _ hagree
  refine ⟨fun c => pixelValue (m ((c.tc : Thread Cert.KernelIdeal.nD Cert.KernelIdeal.τ).loc Cert.KernelIdeal.main_arg0))
      (fun k n => m ((c.tc : Thread Cert.KernelIdeal.nD Cert.KernelIdeal.τ).loc Cert.KernelIdeal.main_arg1) (ix2 k n)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefColumn.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
